-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x512x1024 : Shape := ⟨4, ![4, 8, 512, 1024]⟩
abbrev S8x4096x1024 : Shape := ⟨3, ![8, 4096, 1024]⟩
abbrev S8x1x4096 : Shape := ⟨3, ![8, 1, 4096]⟩
abbrev S8x1x1024 : Shape := ⟨3, ![8, 1, 1024]⟩
abbrev S_ : Shape := ⟨0, ![]⟩

class Facts : Prop where
  bcast_S_S4x8x512x1024 : S_.BroadcastsInDim S4x8x512x1024 (![] : Fin 0 → Fin S4x8x512x1024.rank)
  reducesTo_S4x8x512x1024_S_d0_1_2_3 : S4x8x512x1024.ReducesTo [0, 1, 2, 3] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_arg4 : FVec F S8x1x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1x1024 .f32 := Host.absf main_arg4
  let main_cst_6 : FVec F S_ .f32 := constant S_ .f32 0x7F800000#32
  let main_v20 : FVec F S8x1x1024 .f32 := broadcastInDim S8x1x1024 ![] bcast_S_S8x1x1024 main_cst_6
  let main_v21 : IVec S8x1x1024 1 := cmpf .olt main_v19 main_v20
  let main_c_7 : IVec S_ 1 := constantI S_ 1 1#1
  let main_v22 : IVec S_ 1 := (fun x v => Host.reduce IntOp.andi x v reducesTo_S8x1x1024_S_d0_1_2 h_S_) main_v21 main_c_7
  let main_v23 : IVec S_ 1 := andi main_v18 main_v22
  main_v23

def fn {F : FTy → Type} [FloatOps F] (main_arg0 : FVec F S4x8x512x1024 .f32) (main_arg1 : FVec F S8x4096x1024 .f32) (main_arg2 : FVec F S8x1x4096 .f32) (main_arg3 : FVec F S8x4096x1024 .f32) (main_arg4 : FVec F S8x1x1024 .f32) : IVec S_ 1 :=
  let main_v0 : FVec F S4x8x512x1024 .f32 := Host.absf main_arg0
  let main_cst : FVec F S_ .f32 := constant S_ .f32 0x7F800000#32
  let main_v1 : FVec F S4x8x512x1024 .f32 := broadcastInDim S4x8x512x1024 ![] bcast_S_S4x8x512x1024 main_cst
  let main_v2 : IVec S4x8x512x1024 1 := cmpf .olt main_v0 main_v1
  let main_c : IVec S_ 1 := constantI S_ 1 1#1
  let main_v3 : IVec S_ 1 := (fun x v => Host.reduce IntOp.andi x v reducesTo_S4x8x512x1024_S_d0_1_2_3 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S4x8x512x1024 : Shape := ⟨4, ![4, 8, 512, 1024]⟩
abbrev S8x4096x1024 : Shape := ⟨3, ![8, 4096, 1024]⟩
abbrev S8x1x4096 : Shape := ⟨3, ![8, 1, 4096]⟩
abbrev S8x1x1024 : Shape := ⟨3, ![8, 1, 1024]⟩
abbrev S2x1x512x1024 : Shape := ⟨4, ![2, 1, 512, 1024]⟩
abbrev S1x512x1024 : Shape := ⟨3, ![1, 512, 1024]⟩
abbrev S1x1x512 : Shape := ⟨3, ![1, 1, 512]⟩
abbrev S1x1x1024 : Shape := ⟨3, ![1, 1, 1024]⟩
abbrev S2x512x1024 : Shape := ⟨3, ![2, 512, 1024]⟩
abbrev S1024x1024 : Shape := ⟨2, ![1024, 1024]⟩
abbrev S512x1024 : Shape := ⟨2, ![512, 1024]⟩
abbrev S1024x512 : Shape := ⟨2, ![1024, 512]⟩
abbrev S1x512 : Shape := ⟨2, ![1, 512]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4x8x512x1024, .f32⟩
  | .hbm, ⟨1, _⟩ => ⟨S8x4096x1024, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S4x8x512x1024, .f32⟩
  | .local _ .vmem, ⟨0, _⟩ => ⟨S2x1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x1x512, .f32⟩
  | .local _ .vmem, ⟨4, _⟩ => ⟨S1x1x512, .f32⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S2x1x512x1024, .f32⟩
  | .local _ .vmem, ⟨10, _⟩ => ⟨S2x512x1024, .f32⟩
  | _, _ => ⟨S4x8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v28 : BitVec 1 := Scalar.cmpi .eq arg2 c7_i32
  let v29 : BitVec 32 := Scalar.extui v28
  let c0_i32_21 : BitVec 32 := 0#32
  let v30 : BitVec 1 := Scalar.cmpi .ne v29 c0_i32_21
  v30

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .vmem S2x1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S2x1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]

class Facts₀ : Prop where
  inb_S2x512x1024_S2x512x1024_0_0_0 : ∀ a, (![0, 0, 0] : Fin 3 → Nat) a + S2x512x1024.size a ≤ S2x512x1024.size a
  h_S2x512x1024 : 0 < S2x512x1024.numel
  shapeCasts_S2x512x1024_S2x512x1024 : S2x512x1024.ShapeCasts S2x512x1024
  inb_S2x1x512x1024_S2x1x512x1024_0_0_0_0 : ∀ a, (![0, 0, 0, 0] : Fin 4 → Nat) a + S2x1x512x1024.size a ≤ S2x1x512x1024.size a
  h_S2x1x512x1024 : 0 < S2x1x512x1024.numel
  shapeCasts_S2x1x512x1024_S2x512x1024 : S2x1x512x1024.ShapeCasts S2x512x1024
  shapeCasts_S2x512x1024_S1024x1024 : S2x512x1024.ShapeCasts S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  shapeCasts_S1024x1024_S2x512x1024 : S1024x1024.ShapeCasts S2x512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  broadcasts_S1x1x1024_S2x512x1024 : S1x1x1024.Broadcasts S2x512x1024
  shapeCasts_S2x512x1024_S2x1x512x1024 : S2x512x1024.ShapeCasts S2x1x512x1024
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x1x512x1024.size a ≤ S4x8x512x1024.size a
  hwx0_0 : ∀ i : grid0.Coords, EltTy.bits .f32 = 32 ∨ (Rect.block (s := S4x8x512x1024) S2x1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .f32 = 32 ∨ (Rect.block (s := S8x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .f32 = 32 ∨ (Rect.block (s := S8x4096x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1x512x1024.size a ≤ S4x8x512x1024.size a
  hwx0_5 : ∀ i : grid0.Coords, EltTy.bits .f32 = 32 ∨ (Rect.block (s := S4x8x512x1024) S2x1x512x1024.size (cc0_transform_5 i) (hinb0_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S2x1x512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2x1x512x1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x8x512x1024 : Shape := ⟨4, ![4, 8, 512, 1024]⟩
abbrev S8x4096x1024 : Shape := ⟨3, ![8, 4096, 1024]⟩
abbrev S8x1x4096 : Shape := ⟨3, ![8, 1, 4096]⟩
abbrev S8x1x1024 : Shape := ⟨3, ![8, 1, 1024]⟩
abbrev S8x4x512x1024 : Shape := ⟨4, ![8, 4, 512, 1024]⟩
abbrev S8x2048x1024 : Shape := ⟨3, ![8, 2048, 1024]⟩
abbrev S8x2048x4096 : Shape := ⟨3, ![8, 2048, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x8x512x1024, .f32⟩
  | .hbm, ⟨1, _⟩ => ⟨S8x4096x1024, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x4x512x1024, .f32⟩
  | .hbm, ⟨6, _⟩ => ⟨S8x2048x1024, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S_, .f32⟩
  | .hbm, ⟨11, _⟩ => ⟨S8x2048x4096, .f32⟩
  | .hbm, ⟨12, _⟩ => ⟨S8x2048x4096, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x4x512x1024, .f32⟩
  | .hbm, ⟨17, _⟩ => ⟨S4x8x512x1024, .f32⟩
  | _, _ => ⟨S4x8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  transposes_S4x8x512x1024_S8x4x512x1024_1_0_2_3 : S4x8x512x1024.Transposes [1, 0, 2, 3] S8x4x512x1024
  shapeCasts_S8x4x512x1024_S8x2048x1024 : S8x4x512x1024.ShapeCasts S8x2048x1024
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1x1024_S8x2048x1024_0_1_2 : S8x1x1024.BroadcastsInDim S8x2048x1024 (![0, 1, 2] : Fin 3 → Fin S8x2048x1024.rank)
  shapeCasts_S8x2048x1024_S8x4x512x1024 : S8x2048x1024.ShapeCasts S8x4x512x1024
  transposes_S8x4x512x1024_S4x8x512x1024_1_0_2_3 : S8x4x512x1024.Transposes [1, 0, 2, 3] S4x8x512x1024
  dot_S8x2048x1024_S8x4096x1024_S8x2048x4096_2_2_1_1_0_0_wf : DotDims.WF S8x2048x1024 S8x4096x1024 S8x2048x4096 [2] [2] [1] [1] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.Spec.lean ====
/-
  The specification: a two-layer perceptron per expert, as ONE function of the five argument arrays.

  For batch row `b`, expert `e`, token `c` and output feature `j`,
      out (b, e, c, j) = (∑ k < 4096, relu (∑ q < 1024, x (b, e, c, q) · w1 (e, k, q) + b1 (e, 0, k)) · w2 (e, k, j)) + b2 (e, 0, j)
  over the extended reals, with relu t = max t 0.

  The hidden axis of 4096 units is also cut into eight tiles of 512 consecutive units: `tile` is one tile's
  contribution to an output entry, written over the blocks of the arrays that one tile touches. Because
  addition of extended reals is commutative and associative, the eight contributions add up to the whole sum
  over the hidden axis (`sum_tiles`); no entry needs to be finite for that.
-/
import Idealize.ShloMosaic.PureOps.Ideal
import Idealize.ShloMosaic.Lib.ValueIdx
import proofs.«176429_j47107201303190_1_alg».proof.Proof.LibBlockSum

noncomputable section

namespace Cert.Mlp

open Idealize.ShloMosaic Idealize.ShloMosaic.ValueIdx
open scoped BigOperators

/-- The activations `x`: batch rows × experts × tokens × features. -/
abbrev SX : Shape := ⟨4, ![4, 8, 512, 1024]⟩
/-- A weight array: experts × hidden units × features. -/
abbrev SW : Shape := ⟨3, ![8, 4096, 1024]⟩
/-- The first bias: experts × 1 × hidden units. -/
abbrev SB1 : Shape := ⟨3, ![8, 1, 4096]⟩
/-- The second bias: experts × 1 × features. -/
abbrev SB2 : Shape := ⟨3, ![8, 1, 1024]⟩

/-- The hidden activation of token `(b, c)` of expert `e` at hidden unit `k`: the first layer's affine map, then relu. -/
def hid (x : SX.Idx → EReal) (w1 : SW.Idx → EReal) (b1 : SB1.Idx → EReal)
    (b : Fin 4) (e : Fin 8) (c : Fin 512) (k : Fin 4096) : EReal :=
  max ((∑ q : Fin 1024, x (ix4 b e c q) * w1 (ix3 e k q)) + b1 (ix3 e (0 : Fin 1) k)) 0

/-- The output entry `(b, e, c, j)`: the second layer's affine map of the hidden activations. -/
def mlpAt (x : SX.Idx → EReal) (w1 : SW.Idx → EReal) (b1 : SB1.Idx → EReal) (w2 : SW.Idx → EReal) (b2 : SB2.Idx → EReal)
    (b : Fin 4) (e : Fin 8) (c : Fin 512) (j : Fin 1024) : EReal :=
  (∑ k : Fin 4096, hid x w1 b1 b e c k * w2 (ix3 e k j)) + b2 (ix3 e (0 : Fin 1) j)

/-- The whole output array. -/
def mlp (x : SX.Idx → EReal) (w1 : SW.Idx → EReal) (b1 : SB1.Idx → EReal) (w2 : SW.Idx → EReal) (b2 : SB2.Idx → EReal) :
    SX.Idx → EReal :=
  fun i => mlpAt x w1 b1 w2 b2 (i 0) (i 1) (i 2) (i 3)

/-- A block of activations: two batch rows of one expert. -/
abbrev BX : Shape := ⟨4, ![2, 1, 512, 1024]⟩
/-- A block of a weight array: one tile of 512 hidden units of one expert. -/
abbrev BW : Shape := ⟨3, ![1, 512, 1024]⟩
/-- A block of the first bias: one tile of one expert. -/
abbrev BB1 : Shape := ⟨3, ![1, 1, 512]⟩
/-- A block of the second bias: one expert's row. -/
abbrev BB2 : Shape := ⟨3, ![1, 1, 1024]⟩
/-- The accumulator: two batch rows × tokens × features. -/
abbrev BA : Shape := ⟨3, ![2, 512, 1024]⟩

/-- One tile's contribution to the output entry of batch row `b` (of the block's two), token `c`, feature `j`:
    the sum over the tile's 512 hidden units of relu (first layer) times the second layer's weight. -/
def tile (x0 : BX.Idx → EReal) (x1 : BW.Idx → EReal) (x2 : BB1.Idx → EReal) (x3 : BW.Idx → EReal)
    (b : Fin 2) (c : Fin 512) (j : Fin 1024) : EReal :=
  ∑ r : Fin 512, max ((∑ q : Fin 1024, x0 (ix4 b (0 : Fin 1) c q) * x1 (ix3 (0 : Fin 1) r q))
      + x2 (ix3 (0 : Fin 1) (0 : Fin 1) r)) 0 * x3 (ix3 (0 : Fin 1) r j)

/-- Eight tiles of 512 consecutive hidden units, added up in order from the first, make up the sum over all
    4096 hidden units. -/
theorem sum_tiles {M : Type*} [AddCommMonoid M] (f : Fin 4096 → M) :
    ∑ s ∈ Finset.range 8, (if h : s < 8 then ∑ r : Fin 512, f ⟨512 * s + r.val, by omega⟩ else 0) = ∑ n : Fin 4096, f n := by
  rw [Finset.sum_range, ← Cert.BlockSum.sum_blocks 8 512 f]
  refine Finset.sum_congr rfl fun s _ => ?_
  rw [dif_pos s.isLt]

end Cert.Mlp

end
-- ==== Proof.RefIsSpec.lean ====
/-
  The reference computes the specification.

  The reference moves the expert axis to the front, flattens batch row `b` and token `c` into one token index
  `512·b + c`, runs the two layers as batched matrix products with the biases spread over the tokens, and undoes the
  flattening and the transposition. Read at an output index `(b, e, c, j)`, every layout step is a re-indexing, each
  matrix product is a plain sum over its contracted axis, and what is left is `Cert.Mlp.mlpAt`.
-/
import proofs.«176429_j47107201303190_1_alg».proof.Proof.Gen.ReferenceIdeal.Read
import proofs.«176429_j47107201303190_1_alg».proof.Proof.Spec

noncomputable section

namespace Cert.RefIsMlp

open Cert.ReferenceIdeal Cert.ReferenceIdeal.Read Idealize.ShloMosaic Idealize.ShloMosaic.ValueIdx Cert.Mlp
open scoped BigOperators

/-- The flattened token index of batch row `b` and token `c`. -/
abbrev tok (b : Fin 4) (c : Fin 512) : Fin 2048 := ⟨b.val * 512 + c.val, by omega⟩

/-! ## The layout steps' index maps at coordinates -/

theorem idx_out (b : Fin 4) (e : Fin 8) (c : Fin 512) (j : Fin 1024) : idx_main_v10 (ix4 b e c j) = ix4 e b c j :=
  funext fun a => Fin.ext (by match a with | ⟨0, _⟩ => rfl | ⟨1, _⟩ => rfl | ⟨2, _⟩ => rfl | ⟨3, _⟩ => rfl)

theorem idx_unflatten (b : Fin 4) (e : Fin 8) (c : Fin 512) (j : Fin 1024) :
    idx_main_v9 (ix4 e b c j) = ix3 e (tok b c) j :=
  funext fun a => Fin.ext (by
    have hb := b.isLt; have he := e.isLt; have hc := c.isLt; have hj := j.isLt
    match a with
    | ⟨0, _⟩ => show (((e.val * 4 + b.val) * 512 + c.val) * 1024 + j.val) / 2097152 = e.val; omega
    | ⟨1, _⟩ => show (((e.val * 4 + b.val) * 512 + c.val) * 1024 + j.val) / 1024 % 2048 = b.val * 512 + c.val; omega
    | ⟨2, _⟩ => show (((e.val * 4 + b.val) * 512 + c.val) * 1024 + j.val) % 1024 = j.val; omega)

theorem idx_bias2 (e : Fin 8) (t : Fin 2048) (j : Fin 1024) : idx_main_v7 (ix3 e t j) = ix3 e (0 : Fin 1) j :=
  funext fun a => Fin.ext (by match a with | ⟨0, _⟩ => rfl | ⟨1, _⟩ => rfl | ⟨2, _⟩ => rfl)

theorem lidx_layer2 (e : Fin 8) (t : Fin 2048) (j : Fin 1024) (k : Fin 4096) : lidx_main_v6 (ix3 e t j) k = ix3 e t k :=
  funext fun a => Fin.ext (by match a with | ⟨0, _⟩ => rfl | ⟨1, _⟩ => rfl | ⟨2, _⟩ => rfl)

theorem ridx_layer2 (e : Fin 8) (t : Fin 2048) (j : Fin 1024) (k : Fin 4096) : ridx_main_v6 (ix3 e t j) k = ix3 e k j :=
  funext fun a => Fin.ext (by match a with | ⟨0, _⟩ => rfl | ⟨1, _⟩ => rfl | ⟨2, _⟩ => rfl)

theorem idx_bias1 (e : Fin 8) (t : Fin 2048) (k : Fin 4096) : idx_main_v3 (ix3 e t k) = ix3 e (0 : Fin 1) k :=
  funext fun a => Fin.ext (by match a with | ⟨0, _⟩ => rfl | ⟨1, _⟩ => rfl | ⟨2, _⟩ => rfl)

theorem lidx_layer1 (e : Fin 8) (t : Fin 2048) (k : Fin 4096) (q : Fin 1024) : lidx_main_v2 (ix3 e t k) q = ix3 e t q :=
  funext fun a => Fin.ext (by match a with | ⟨0, _⟩ => rfl | ⟨1, _⟩ => rfl | ⟨2, _⟩ => rfl)

theorem ridx_layer1 (e : Fin 8) (t : Fin 2048) (k : Fin 4096) (q : Fin 1024) : ridx_main_v2 (ix3 e t k) q = ix3 e k q :=
  funext fun a => Fin.ext (by match a with | ⟨0, _⟩ => rfl | ⟨1, _⟩ => rfl | ⟨2, _⟩ => rfl)

theorem idx_flatten (b : Fin 4) (e : Fin 8) (c : Fin 512) (q : Fin 1024) :
    idx_main_v1 (ix3 e (tok b c) q) = ix4 e b c q :=
  funext fun a => Fin.ext (by
    have hb := b.isLt; have he := e.isLt; have hc := c.isLt; have hq := q.isLt
    match a with
    | ⟨0, _⟩ => show ((e.val * 2048 + (b.val * 512 + c.val)) * 1024 + q.val) / 2097152 = e.val; omega
    | ⟨1, _⟩ => show ((e.val * 2048 + (b.val * 512 + c.val)) * 1024 + q.val) / 524288 % 4 = b.val; omega
    | ⟨2, _⟩ => show ((e.val * 2048 + (b.val * 512 + c.val)) * 1024 + q.val) / 1024 % 512 = c.val; omega
    | ⟨3, _⟩ => show ((e.val * 2048 + (b.val * 512 + c.val)) * 1024 + q.val) % 1024 = q.val; omega)

theorem idx_in (b : Fin 4) (e : Fin 8) (c : Fin 512) (q : Fin 1024) : idx_main_v0 (ix4 e b c q) = ix4 b e c q :=
  funext fun a => Fin.ext (by match a with | ⟨0, _⟩ => rfl | ⟨1, _⟩ => rfl | ⟨2, _⟩ => rfl | ⟨3, _⟩ => rfl)

/-! ## The reference's result -/

/-- The hidden activations the reference computes, at expert `e`, flattened token `512·b + c` and hidden unit `k`. -/
theorem hidden_apply (x0 : SX.Idx → EReal) (x1 : SW.Idx → EReal) (x2 : SB1.Idx → EReal)
    (b : Fin 4) (e : Fin 8) (c : Fin 512) (k : Fin 4096) :
    val_main_v5 (F := Ideal) x0 x1 x2 (ix3 e (tok b c) k) = hid x0 x1 x2 b e c k := by
  rw [val_main_v5_apply, val_main_v4_apply, val_main_v2_apply, val_main_v3_apply, idx_bias1, val_main_call0_v0_apply,
    val_main_call0_cst_apply]
  unfold hid
  simp only [Ideal.addf_def, Ideal.maximumf_def, Ideal.ofBits_def, Ideal.ofBits_zero_f32]
  congr 2
  refine Finset.sum_congr rfl fun q _ => ?_
  rw [lidx_layer1, ridx_layer1, val_main_v1_apply, idx_flatten, val_main_v0_apply, idx_in]

/-- The reference's result array is the specification. -/
theorem ref_eq (x0 : SX.Idx → EReal) (x1 : SW.Idx → EReal) (x2 : SB1.Idx → EReal) (x3 : SW.Idx → EReal) (x4 : SB2.Idx → EReal) :
    val_main_v10 (F := Ideal) x0 x1 x2 x3 x4 = mlp x0 x1 x2 x3 x4 := by
  funext i
  obtain ⟨b, e, c, j, rfl⟩ : ∃ (b : Fin 4) (e : Fin 8) (c : Fin 512) (j : Fin 1024), i = ix4 b e c j :=
    ⟨i 0, i 1, i 2, i 3, eq_ix4 i⟩
  show _ = mlpAt x0 x1 x2 x3 x4 b e c j
  rw [val_main_v10_apply, idx_out, val_main_v9_apply, idx_unflatten, val_main_v8_apply, val_main_v6_apply,
    val_main_v7_apply, idx_bias2]
  unfold mlpAt
  simp only [Ideal.addf_def]
  congr 1
  refine Finset.sum_congr rfl fun k _ => ?_
  rw [lidx_layer2, ridx_layer2, hidden_apply]

end Cert.RefIsMlp

end
-- ==== Proof.Pieces.lean ====
/-
  What one run of the kernel body leaves behind, as values.

  At a tile's first grid point the body stores zero into the accumulator, reads it back, and stores the accumulating
  value over it; at the other points it reads what the point before left and stores the accumulating value; at a tile
  run's last point it also reads the accumulator back once more and stores the epilogue's value into the output block.
  Each buffer the body writes is covered whole by its last store, and every load reads a whole buffer, so what the
  buffer holds afterwards is that last store's value as a function of the input blocks (and of the accumulator the
  point before left). These statements hold for any reading of the float operations.
-/
import proofs.«176429_j47107201303190_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A tile run's first point: the accumulator ends at the accumulating value over zero. -/
theorem acc_first (c : Dev nD) (i : grid0.Coords) (arg3 : Memref sig .tc .vmem S2x1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S2x1x512x1024 .f32) (harg8 : arg8.IsWhole) (arg9 : Memref sig .tc .vmem S2x512x1024 .f32) (harg9 : arg9.IsWhole) (hc0 : cond0_0 i) (hc1 : ¬cond0_1 i) (x0 : Vec F S2x1x512x1024 .f32) (x1 : Vec F S1x512x1024 .f32) (x2 : Vec F S1x1x512 .f32) (x3 : Vec F S1x512x1024 .f32) (x4 : Vec F S1x1x1024 .f32) :
    sout0_A_0 c i arg3 harg3 arg4 harg4 arg5 harg5 arg6 harg6 arg7 harg7 arg8 harg8 arg9 harg9 hc0 hc1 x0 x1 x2 x3 x4 = k0_pay3 x0 x1 x2 x3 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2x512x1024) hz3, View.readCov_unit_zero (S := S2x512x1024) _ hz3]
  simp only [View.readAt_eq_ld, harg3.read_unread, harg4.read_unread, harg5.read_unread, harg6.read_unread,
    View.ld_unit_zero (S := S2x1x512x1024) hz4, View.ld_unit_zero (S := S1x512x1024) hz3, View.ld_unit_zero (S := S1x1x512) hz3]

/-- A middle point: the accumulator ends at the accumulating value over what the point before left. -/
theorem acc_middle (c : Dev nD) (i : grid0.Coords) (arg3 : Memref sig .tc .vmem S2x1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S2x1x512x1024 .f32) (harg8 : arg8.IsWhole) (arg9 : Memref sig .tc .vmem S2x512x1024 .f32) (harg9 : arg9.IsWhole) (hc0 : ¬cond0_0 i) (hc1 : ¬cond0_1 i) (x0 : Vec F S2x1x512x1024 .f32) (x1 : Vec F S1x512x1024 .f32) (x2 : Vec F S1x1x512 .f32) (x3 : Vec F S1x512x1024 .f32) (x4 : Vec F S1x1x1024 .f32) (xs0 : Vec F S2x512x1024 .f32) :
    sout0_B_0 c i arg3 harg3 arg4 harg4 arg5 harg5 arg6 harg6 arg7 harg7 arg8 harg8 arg9 harg9 hc0 hc1 x0 x1 x2 x3 x4 xs0 = k0_pay3 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz3]
  simp only [View.readAt_eq_ld, harg3.read_unread, harg4.read_unread, harg5.read_unread, harg6.read_unread, harg9.read_unread,
    View.ld_unit_zero (S := S2x1x512x1024) hz4, View.ld_unit_zero (S := S1x512x1024) hz3, View.ld_unit_zero (S := S1x1x512) hz3,
    View.ld_unit_zero (S := S2x512x1024) hz3]

/-- A tile run's last point: the accumulator, as at a middle point. -/
theorem acc_last (c : Dev nD) (i : grid0.Coords) (arg3 : Memref sig .tc .vmem S2x1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S2x1x512x1024 .f32) (harg8 : arg8.IsWhole) (arg9 : Memref sig .tc .vmem S2x512x1024 .f32) (harg9 : arg9.IsWhole) (hc0 : ¬cond0_0 i) (hc1 : cond0_1 i) (x0 : Vec F S2x1x512x1024 .f32) (x1 : Vec F S1x512x1024 .f32) (x2 : Vec F S1x1x512 .f32) (x3 : Vec F S1x512x1024 .f32) (x4 : Vec F S1x1x1024 .f32) (xs0 : Vec F S2x512x1024 .f32) :
    sout0_C_0 c i arg3 harg3 arg4 harg4 arg5 harg5 arg6 harg6 arg7 harg7 arg8 harg8 arg9 harg9 hc0 hc1 x0 x1 x2 x3 x4 xs0 = k0_pay3 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz3]
  simp only [View.readAt_eq_ld, harg3.read_unread, harg4.read_unread, harg5.read_unread, harg6.read_unread, harg9.read_unread,
    View.ld_unit_zero (S := S2x1x512x1024) hz4, View.ld_unit_zero (S := S1x512x1024) hz3, View.ld_unit_zero (S := S1x1x512) hz3,
    View.ld_unit_zero (S := S2x512x1024) hz3]

/-- A tile run's last point: the output block ends at the epilogue's value of the accumulator just stored. -/
theorem out_last (c : Dev nD) (i : grid0.Coords) (arg3 : Memref sig .tc .vmem S2x1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S1x1x1024 .f32) (harg7 : arg7.IsWhole) (arg8 : Memref sig .tc .vmem S2x1x512x1024 .f32) (harg8 : arg8.IsWhole) (arg9 : Memref sig .tc .vmem S2x512x1024 .f32) (harg9 : arg9.IsWhole) (hc0 : ¬cond0_0 i) (hc1 : cond0_1 i) (x0 : Vec F S2x1x512x1024 .f32) (x1 : Vec F S1x512x1024 .f32) (x2 : Vec F S1x1x512 .f32) (x3 : Vec F S1x512x1024 .f32) (x4 : Vec F S1x1x1024 .f32) (xs0 : Vec F S2x512x1024 .f32) :
    out0_C_5 c i arg3 harg3 arg4 harg4 arg5 harg5 arg6 harg6 arg7 harg7 arg8 harg8 arg9 harg9 hc0 hc1 x0 x1 x2 x3 x4 xs0 = k0_pay1 (k0_pay3 x0 x1 x2 x3 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz4]
  simp only [View.readAt_eq_ld, harg3.read_unread, harg4.read_unread, harg5.read_unread, harg6.read_unread, harg7.read_unread, harg9.read_unread,
    View.ld_unit_zero (S := S2x1x512x1024) hz4, View.ld_unit_zero (S := S1x512x1024) hz3, View.ld_unit_zero (S := S1x1x512) hz3,
    View.ld_unit_zero (S := S2x512x1024) hz3, View.ld_unit_zero (S := S1x1x1024) hz3, View.readCov_unit_zero (S := S2x512x1024) _ hz3]

end Cert.KernelIdeal.Pieces

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.Payload.lean ====
/-
  The kernel body's stored values, read at an index over the extended reals.

  The body flattens its block of activations (two batch rows × 512 tokens) into 1024 rows, multiplies by the tile's
  first-layer weights contracted over the features, adds the tile's bias along the rows, clamps at zero, multiplies by the
  tile's second-layer weights contracted over the tile's 512 hidden units, folds the 1024 rows back into two batch rows,
  and adds the result to the accumulator. Every change of float format is the identity on extended reals, a matrix
  product into the zero accumulator is a plain sum, and the reshapes only re-index: the stored value at
  `(b, c, j)` is the accumulator's entry plus `Cert.Mlp.tile`. The reset stores zero; the last tile's epilogue stores the
  accumulator plus the second bias, spread over batch rows and tokens.
-/
import proofs.«176429_j47107201303190_1_alg».proof.Proof.Gen.KernelIdeal.Skeleton
import proofs.«176429_j47107201303190_1_alg».proof.Proof.Spec
import proofs.«176429_j47107201303190_1_alg».proof.Proof.LibDotFormats
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Mlp
open scoped BigOperators

variable {α : Type}

/-- Row `512·b + c` of the 1024 flattened rows. -/
abbrev row (b : Fin 2) (c : Fin 512) : Fin 1024 := ⟨b.val * 512 + c.val, by omega⟩

/-! ## The reshapes and broadcasts of the body, read at coordinates -/

/-- Dropping the unit expert axis of a block of activations. -/
theorem drop_expert (x : BX.Idx → α) (h : BX.ShapeCasts BA) (b : Fin 2) (c : Fin 512) (q : Fin 1024) :
    shapeCast BA x h (ix3 b c q) = x (ix4 b (0 : Fin 1) c q) :=
  shapeCast_apply x h _ _ (by
    rw [Shape.rowMajor_val_four, Shape.rowMajor_val_three]
    show ((b.val * 1 + 0) * 512 + c.val) * 1024 + q.val = (b.val * 512 + c.val) * 1024 + q.val
    omega)

/-- Putting the unit expert axis back. -/
theorem add_expert (x : BA.Idx → α) (h : BA.ShapeCasts BX) (b : Fin 2) (u : Fin 1) (c : Fin 512) (q : Fin 1024) :
    shapeCast BX x h (ix4 b u c q) = x (ix3 b c q) :=
  shapeCast_apply x h _ _ (by
    have hu : u.val = 0 := by omega
    rw [Shape.rowMajor_val_four, Shape.rowMajor_val_three]
    show (b.val * 512 + c.val) * 1024 + q.val = ((b.val * 1 + u.val) * 512 + c.val) * 1024 + q.val
    omega)

/-- Flattening batch row and token into one row index. -/
theorem flatten_rows (x : BA.Idx → α) (h : BA.ShapeCasts ⟨2, ![1024, 1024]⟩) (b : Fin 2) (c : Fin 512) (q : Fin 1024) :
    shapeCast ⟨2, ![1024, 1024]⟩ x h (ix2 (row b c) q) = x (ix3 b c q) :=
  shapeCast_apply x h _ _ (by
    rw [Shape.rowMajor_val_three, Shape.rowMajor_val_two]
    show (b.val * 512 + c.val) * 1024 + q.val = (b.val * 512 + c.val) * 1024 + q.val
    rfl)

/-- Folding the 1024 rows back into batch row and token. -/
theorem fold_rows (x : (⟨2, ![1024, 1024]⟩ : Shape).Idx → α) (h : (⟨2, ![1024, 1024]⟩ : Shape).ShapeCasts BA)
    (b : Fin 2) (c : Fin 512) (j : Fin 1024) :
    shapeCast BA x h (ix3 b c j) = x (ix2 (row b c) j) :=
  shapeCast_apply x h _ _ (by
    rw [Shape.rowMajor_val_three, Shape.rowMajor_val_two]
    show (b.val * 512 + c.val) * 1024 + j.val = (b.val * 512 + c.val) * 1024 + j.val
    rfl)

/-- One expert's bias row spread over two batch rows and 512 tokens. -/
theorem spread_bias (x : BB2.Idx → α) (h : BB2.Broadcasts BA) (b : Fin 2) (c : Fin 512) (j : Fin 1024) :
    broadcastTo BA x h (ix3 b c j) = x (ix3 (0 : Fin 1) (0 : Fin 1) j) := by
  refine broadcastTo_apply x h (ix3 b c j) (ix3 (0 : Fin 1) (0 : Fin 1) j) fun ax => ?_
  match ax with
  | ⟨0, _⟩ => rfl
  | ⟨1, _⟩ => rfl
  | ⟨2, _⟩ => rfl

/-! ## The two matrix products, over the printed dimension records -/

/-- The first layer's product: rows against the tile's weight rows, both contracted on their feature axis. -/
theorem layer1_apply (lhs : FVec Ideal S1024x1024 .bf16) (rhs : FVec Ideal S512x1024 .bf16) (p : Fin 1024) (r : Fin 512) :
    matmul dot_S1024x1024_S512x1024_S1024x512_1_1_0_0_n_n none lhs rhs (constant S1024x512 .f32 0x00000000#32) (ix2 p r)
      = ∑ q : Fin 1024, lhs (ix2 p q) * rhs (ix2 r q) :=
  Cert.LibDotFormats.matmul_rows_zero_apply dot_S1024x1024_S512x1024_S1024x512_1_1_0_0_n_n rfl rfl rfl rfl rfl rfl none lhs rhs p r

/-- The second layer's product: hidden activations against the tile's weights, contracted over the tile's hidden units. -/
theorem layer2_apply (lhs : FVec Ideal S1024x512 .bf16) (rhs : FVec Ideal S512x1024 .bf16) (p : Fin 1024) (j : Fin 1024) :
    matmul dot_S1024x512_S512x1024_S1024x1024_1_0_0_1_n_n none lhs rhs (constant S1024x1024 .f32 0x00000000#32) (ix2 p j)
      = ∑ r : Fin 512, lhs (ix2 p r) * rhs (ix2 r j) :=
  Cert.LibDotFormats.matmul_cols_zero_apply dot_S1024x512_S512x1024_S1024x1024_1_0_0_1_n_n rfl rfl rfl rfl rfl rfl none lhs rhs p j

/-! ## The stored values -/

/-- The hidden activations of the tile: row `(b, c)` at the tile's hidden unit `r`. -/
theorem hidden_apply (x0 : FVec Ideal BX .f32) (x1 : FVec Ideal BW .f32) (x2 : FVec Ideal BB1 .f32)
    (b : Fin 2) (c : Fin 512) (r : Fin 512) :
    (truncf .bf16 (maximumf
      (addf
        (matmul dot_S1024x1024_S512x1024_S1024x512_1_1_0_0_n_n none
          (truncf .bf16 (shapeCast S1024x1024 (shapeCast S2x512x1024 x0 shapeCasts_S2x1x512x1024_S2x512x1024)
            shapeCasts_S2x512x1024_S1024x1024) bitsLt_bf16_f32)
          (truncf .bf16 (shapeCast S512x1024 x1 shapeCasts_S1x512x1024_S512x1024) bitsLt_bf16_f32)
          (constant S1024x512 .f32 0x00000000#32))
        (broadcastTo S1024x512 (shapeCast S1x512 x2 shapeCasts_S1x1x512_S1x512) broadcasts_S1x512_S1024x512))
      (broadcast S1024x512 (Scalar.ofBits (F := Ideal) .f32 0x00000000#32))) bitsLt_bf16_f32 : FVec Ideal S1024x512 .bf16)
      (ix2 (row b c) r)
    = max ((∑ q : Fin 1024, x0 (ix4 b (0 : Fin 1) c q) * x1 (ix3 (0 : Fin 1) r q)) + x2 (ix3 (0 : Fin 1) (0 : Fin 1) r)) 0 := by
  rw [truncf_apply, maximumf_apply, addf_apply, broadcast_apply]
  rw [layer1_apply, broadcastTo_1b_ab_apply, shapeCast_1ab_ab_apply]
  congr 1
  · congr 1
    refine Finset.sum_congr rfl fun q _ => ?_
    rw [truncf_apply, truncf_apply, flatten_rows, drop_expert, shapeCast_1ab_ab_apply]
  · exact Ideal.ofBits_zero_f32

/-- The accumulating store: the accumulator's entry plus the tile's contribution. -/
theorem pay3_apply (x0 : FVec Ideal BX .f32) (x1 : FVec Ideal BW .f32) (x2 : FVec Ideal BB1 .f32) (x3 : FVec Ideal BW .f32)
    (acc : FVec Ideal BA .f32) (b : Fin 2) (c : Fin 512) (j : Fin 1024) :
    k0_pay3 (F := Ideal) x0 x1 x2 x3 acc (ix3 b c j) = acc (ix3 b c j) + tile x0 x1 x2 x3 b c j := by
  unfold k0_pay3
  rw [shapeCast_self, addf_apply, fold_rows, layer2_apply]
  unfold tile
  congr 1
  refine Finset.sum_congr rfl fun r _ => ?_
  rw [hidden_apply, truncf_apply, shapeCast_1ab_ab_apply]

/-- The reset stores zero. -/
theorem pay2_apply (i : BA.Idx) : k0_pay2 (F := Ideal) i = 0 := by
  unfold k0_pay2
  rw [shapeCast_self, broadcast_apply]
  exact Ideal.ofBits_zero_f32

/-- The epilogue's store: the accumulator plus the expert's second bias, with the unit expert axis put back. -/
theorem pay1_apply (acc : FVec Ideal BA .f32) (x4 : FVec Ideal BB2 .f32) (b : Fin 2) (u : Fin 1) (c : Fin 512) (j : Fin 1024) :
    k0_pay1 (F := Ideal) acc x4 (ix4 b u c j) = acc (ix3 b c j) + x4 (ix3 (0 : Fin 1) (0 : Fin 1) j) := by
  unfold k0_pay1
  rw [add_expert, addf_apply, spread_bias, shapeCast_ab_1ab_apply, shapeCast_1ab_ab_apply]

end Cert.KernelIdeal.Payload

end
-- ==== Proof.Tiles.lean ====
/-
  The grid's points and the tiles they handle.

  The grid has 8 × 2 × 8 points, numbered `n = 16·e + 8·o + h`: expert `e`, pair of batch rows `o`, hidden tile `h`
  (the fastest axis). Point `n` handles batch rows `2·o` and `2·o + 1` of expert `e` and the hidden units
  `512·h … 512·h + 511`. `tileAt` is that point's contribution to an output entry, written over the whole arrays.
  The eight points of one run `8·(n / 8) … 8·(n / 8) + 7` share expert and batch rows and walk through the eight
  tiles, so their contributions add up to the sum over all 4096 hidden units (`sum_tileAt`).
-/
import proofs.«176429_j47107201303190_1_alg».proof.Proof.Spec

noncomputable section

namespace Cert.Mlp

open Idealize.ShloMosaic Idealize.ShloMosaic.ValueIdx
open scoped BigOperators

/-- The expert of grid point `n`. -/
abbrev expert (n : ℕ) : Fin 8 := ⟨n / 16 % 8, by omega⟩
/-- The batch row of grid point `n`'s block row `b`. -/
abbrev brow (n : ℕ) (b : Fin 2) : Fin 4 := ⟨2 * (n / 8 % 2) + b.val, by omega⟩
/-- The hidden unit of grid point `n`'s tile at offset `r`. -/
abbrev hunit (n : ℕ) (r : Fin 512) : Fin 4096 := ⟨512 * (n % 8) + r.val, by omega⟩

/-- Grid point `n`'s contribution to the output entry of its block row `b`, token `c`, feature `j`. -/
def tileAt (x : SX.Idx → EReal) (w1 : SW.Idx → EReal) (b1 : SB1.Idx → EReal) (w2 : SW.Idx → EReal)
    (n : ℕ) (b : Fin 2) (c : Fin 512) (j : Fin 1024) : EReal :=
  ∑ r : Fin 512, hid x w1 b1 (brow n b) (expert n) c (hunit n r) * w2 (ix3 (expert n) (hunit n r) j)

/-- The contributions of the eight points of the run that contains point `n` add up to the second layer's whole sum
    over the hidden axis, at point `n`'s expert and batch rows. -/
theorem sum_tileAt (x : SX.Idx → EReal) (w1 : SW.Idx → EReal) (b1 : SB1.Idx → EReal) (w2 : SW.Idx → EReal)
    (n : ℕ) (b : Fin 2) (c : Fin 512) (j : Fin 1024) :
    ∑ s ∈ Finset.range 8, tileAt x w1 b1 w2 (8 * (n / 8) + s) b c j
      = ∑ k : Fin 4096, hid x w1 b1 (brow n b) (expert n) c k * w2 (ix3 (expert n) k j) := by
  rw [← sum_tiles (fun k : Fin 4096 => hid x w1 b1 (brow n b) (expert n) c k * w2 (ix3 (expert n) k j))]
  refine Finset.sum_congr rfl fun s hs => ?_
  have hs8 : s < 8 := Finset.mem_range.mp hs
  rw [dif_pos hs8]
  unfold tileAt
  have e1 : expert (8 * (n / 8) + s) = expert n := Fin.ext (by show (8 * (n / 8) + s) / 16 % 8 = n / 16 % 8; omega)
  have e2 : brow (8 * (n / 8) + s) b = brow n b :=
    Fin.ext (by show 2 * ((8 * (n / 8) + s) / 8 % 2) + b.val = 2 * (n / 8 % 2) + b.val; omega)
  refine Finset.sum_congr rfl fun r _ => ?_
  have e3 : hunit (8 * (n / 8) + s) r = ⟨512 * s + r.val, by omega⟩ :=
    Fin.ext (by show 512 * ((8 * (n / 8) + s) % 8) + r.val = 512 * s + r.val; omega)
  rw [e1, e2, e3]

end Cert.Mlp

end
-- ==== Proof.Blocks.lean ====
/-
  The windows' blocks at a grid point, read at coordinates.

  At grid point `t` the pipeline hands the body one block of each argument array: of the activations the two batch
  rows `2·o, 2·o + 1` of expert `e`; of each weight array the tile `h` of expert `e`; of the first bias tile `h` of expert
  `e`'s row; of the second bias expert `e`'s row; and it writes back the output block of the same batch rows and expert
  as the activations' block — where `t = 16·e + 8·o + h`. A block's entry at a coordinate inside the block is the
  array's entry at block index × block size + that coordinate, on every axis; the block indices are decided once over
  the 128 grid points.
-/
import proofs.«176429_j47107201303190_1_alg».proof.Proof.Gen.KernelIdeal.Frame
import proofs.«176429_j47107201303190_1_alg».proof.Proof.Tiles
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Mlp

variable {F : FTy → Type} [FloatOps F]
variable (m : (ℓ : Loc nD τ sig) → Buf (Elt F) ℓ)

/-! ## The blocks and the arrays, at their literal types -/

abbrev xblk (c : Dev nD) (t : Fin cfg0.N) : Vec F S2x1x512x1024 .f32 := iblk m c 0 t
abbrev w1blk (c : Dev nD) (t : Fin cfg0.N) : Vec F S1x512x1024 .f32 := iblk m c 1 t
abbrev b1blk (c : Dev nD) (t : Fin cfg0.N) : Vec F S1x1x512 .f32 := iblk m c 2 t
abbrev w2blk (c : Dev nD) (t : Fin cfg0.N) : Vec F S1x512x1024 .f32 := iblk m c 3 t
abbrev b2blk (c : Dev nD) (t : Fin cfg0.N) : Vec F S1x1x1024 .f32 := iblk m c 4 t

abbrev xarr (c : Dev nD) : Vec F S4x8x512x1024 .f32 := m ((c : Thread nD τ).loc main_arg0)
abbrev w1arr (c : Dev nD) : Vec F S8x4096x1024 .f32 := m ((c : Thread nD τ).loc main_arg1)
abbrev b1arr (c : Dev nD) : Vec F S8x1x4096 .f32 := m ((c : Thread nD τ).loc main_arg2)
abbrev w2arr (c : Dev nD) : Vec F S8x4096x1024 .f32 := m ((c : Thread nD τ).loc main_arg3)
abbrev b2arr (c : Dev nD) : Vec F S8x1x1024 .f32 := m ((c : Thread nD τ).loc main_arg4)

/-! ## The block indices, decided over the grid -/

theorem lt_N (t : Fin cfg0.N) : t.val < 128 := lt_of_lt_of_eq t.isLt (show cfg0.N = 128 from N_0)

theorem index_x : ∀ t : Fin cfg0.N, win0_0.index t 0 = t.val / 8 % 2 ∧ win0_0.index t 1 = t.val / 16
    ∧ win0_0.index t 2 = 0 ∧ win0_0.index t 3 = 0 :=
  (by decide +kernel : ∀ t : Fin grid0.N, win0_0.index t 0 = t.val / 8 % 2 ∧ win0_0.index t 1 = t.val / 16
    ∧ win0_0.index t 2 = 0 ∧ win0_0.index t 3 = 0)

theorem index_w1 : ∀ t : Fin cfg0.N, win0_1.index t 0 = t.val / 16 ∧ win0_1.index t 1 = t.val % 8 ∧ win0_1.index t 2 = 0 :=
  (by decide +kernel : ∀ t : Fin grid0.N, win0_1.index t 0 = t.val / 16 ∧ win0_1.index t 1 = t.val % 8 ∧ win0_1.index t 2 = 0)

theorem index_b1 : ∀ t : Fin cfg0.N, win0_2.index t 0 = t.val / 16 ∧ win0_2.index t 1 = 0 ∧ win0_2.index t 2 = t.val % 8 :=
  (by decide +kernel : ∀ t : Fin grid0.N, win0_2.index t 0 = t.val / 16 ∧ win0_2.index t 1 = 0 ∧ win0_2.index t 2 = t.val % 8)

theorem index_w2 : ∀ t : Fin cfg0.N, win0_3.index t 0 = t.val / 16 ∧ win0_3.index t 1 = t.val % 8 ∧ win0_3.index t 2 = 0 :=
  (by decide +kernel : ∀ t : Fin grid0.N, win0_3.index t 0 = t.val / 16 ∧ win0_3.index t 1 = t.val % 8 ∧ win0_3.index t 2 = 0)

theorem index_b2 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

theorem index_out : ∀ t : Fin cfg0.N, win0_5.index t 0 = t.val / 8 % 2 ∧ win0_5.index t 1 = t.val / 16
    ∧ win0_5.index t 2 = 0 ∧ win0_5.index t 3 = 0 :=
  (by decide +kernel : ∀ t : Fin grid0.N, win0_5.index t 0 = t.val / 8 % 2 ∧ win0_5.index t 1 = t.val / 16
    ∧ win0_5.index t 2 = 0 ∧ win0_5.index t 3 = 0)

/-! ## The blocks at coordinates -/

/-- The activations' block: batch row `b` of the block is batch row `2·o + b` of expert `e`. -/
theorem xblk_apply (c : Dev nD) (t : Fin cfg0.N) (b : Fin 2) (u : Fin 1) (k : Fin 512) (q : Fin 1024) :
    xblk m c t (ix4 b u k q) = xarr m c (ix4 (brow t.val b) (expert t.val) k q) := by
  have hN := lt_N t
  have hu : u.val = 0 := by omega
  unfold xblk iblk
  rw [View.read_apply]
  show V m c main_arg0 _ = xarr m c _
  unfold V xarr
  congr 1
  funext a
  apply Fin.ext
  match a with
  | ⟨0, _⟩ => show win0_0.index t 0 * 2 + 1 * b.val = 2 * (t.val / 8 % 2) + b.val; rw [(index_x t).1]; omega
  | ⟨1, _⟩ => show win0_0.index t 1 * 1 + 1 * u.val = t.val / 16 % 8; rw [(index_x t).2.1]; omega
  | ⟨2, _⟩ => show win0_0.index t 2 * 512 + 1 * k.val = k.val; rw [(index_x t).2.2.1]; omega
  | ⟨3, _⟩ => show win0_0.index t 3 * 1024 + 1 * q.val = q.val; rw [(index_x t).2.2.2]; omega

/-- The first layer's weights: row `r` of the block is hidden unit `512·h + r` of expert `e`. -/
theorem w1blk_apply (c : Dev nD) (t : Fin cfg0.N) (u : Fin 1) (r : Fin 512) (q : Fin 1024) :
    w1blk m c t (ix3 u r q) = w1arr m c (ix3 (expert t.val) (hunit t.val r) q) := by
  have hN := lt_N t
  have hu : u.val = 0 := by omega
  unfold w1blk iblk
  rw [View.read_apply]
  show V m c main_arg1 _ = w1arr m c _
  unfold V w1arr
  congr 1
  funext a
  apply Fin.ext
  match a with
  | ⟨0, _⟩ => show win0_1.index t 0 * 1 + 1 * u.val = t.val / 16 % 8; rw [(index_w1 t).1]; omega
  | ⟨1, _⟩ => show win0_1.index t 1 * 512 + 1 * r.val = 512 * (t.val % 8) + r.val; rw [(index_w1 t).2.1]; omega
  | ⟨2, _⟩ => show win0_1.index t 2 * 1024 + 1 * q.val = q.val; rw [(index_w1 t).2.2]; omega

/-- The first bias: entry `r` of the block is hidden unit `512·h + r` of expert `e`'s row. -/
theorem b1blk_apply (c : Dev nD) (t : Fin cfg0.N) (u v : Fin 1) (r : Fin 512) :
    b1blk m c t (ix3 u v r) = b1arr m c (ix3 (expert t.val) (0 : Fin 1) (hunit t.val r)) := by
  have hN := lt_N t
  have hu : u.val = 0 := by omega
  have hv : v.val = 0 := by omega
  unfold b1blk iblk
  rw [View.read_apply]
  show V m c main_arg2 _ = b1arr m c _
  unfold V b1arr
  congr 1
  funext a
  apply Fin.ext
  match a with
  | ⟨0, _⟩ => show win0_2.index t 0 * 1 + 1 * u.val = t.val / 16 % 8; rw [(index_b1 t).1]; omega
  | ⟨1, _⟩ => show win0_2.index t 1 * 1 + 1 * v.val = 0; rw [(index_b1 t).2.1]; omega
  | ⟨2, _⟩ => show win0_2.index t 2 * 512 + 1 * r.val = 512 * (t.val % 8) + r.val; rw [(index_b1 t).2.2]; omega

/-- The second layer's weights: row `r` of the block is hidden unit `512·h + r` of expert `e`. -/
theorem w2blk_apply (c : Dev nD) (t : Fin cfg0.N) (u : Fin 1) (r : Fin 512) (j : Fin 1024) :
    w2blk m c t (ix3 u r j) = w2arr m c (ix3 (expert t.val) (hunit t.val r) j) := by
  have hN := lt_N t
  have hu : u.val = 0 := by omega
  unfold w2blk iblk
  rw [View.read_apply]
  show V m c main_arg3 _ = w2arr m c _
  unfold V w2arr
  congr 1
  funext a
  apply Fin.ext
  match a with
  | ⟨0, _⟩ => show win0_3.index t 0 * 1 + 1 * u.val = t.val / 16 % 8; rw [(index_w2 t).1]; omega
  | ⟨1, _⟩ => show win0_3.index t 1 * 512 + 1 * r.val = 512 * (t.val % 8) + r.val; rw [(index_w2 t).2.1]; omega
  | ⟨2, _⟩ => show win0_3.index t 2 * 1024 + 1 * j.val = j.val; rw [(index_w2 t).2.2]; omega

/-- The second bias: the block is expert `e`'s row. -/
theorem b2blk_apply (c : Dev nD) (t : Fin cfg0.N) (u v : Fin 1) (j : Fin 1024) :
    b2blk m c t (ix3 u v j) = b2arr m c (ix3 (expert t.val) (0 : Fin 1) j) := by
  have hN := lt_N t
  have hu : u.val = 0 := by omega
  have hv : v.val = 0 := by omega
  unfold b2blk iblk
  rw [View.read_apply]
  show V m c main_arg4 _ = b2arr m c _
  unfold V b2arr
  congr 1
  funext a
  apply Fin.ext
  match a with
  | ⟨0, _⟩ => show win0_4.index t 0 * 1 + 1 * u.val = t.val / 16 % 8; rw [(index_b2 t).1]; omega
  | ⟨1, _⟩ => show win0_4.index t 1 * 1 + 1 * v.val = 0; rw [(index_b2 t).2.1]; omega
  | ⟨2, _⟩ => show win0_4.index t 2 * 1024 + 1 * j.val = j.val; rw [(index_b2 t).2.2]; omega

end Cert.KernelIdeal.Blocks

end
-- ==== Proof.Acc.lean ====
/-
  The accumulator after a tile run.

  The scratch accumulator is reset at the first of every eight consecutive grid points and updated at each of them:
  the reset point leaves zero plus its tile's contribution, every later point what the point before left plus its own
  tile's contribution. So after the run's last point an entry holds zero plus the sum of the run's eight
  contributions, in point order.
-/
import proofs.«176429_j47107201303190_1_alg».proof.Proof.Gen.KernelIdeal.Value
import proofs.«176429_j47107201303190_1_alg».proof.Proof.Pieces
import proofs.«176429_j47107201303190_1_alg».proof.Proof.Payload
import proofs.«176429_j47107201303190_1_alg».proof.Proof.Blocks

noncomputable section

namespace Cert.KernelIdeal.Acc

open Cert.KernelIdeal Cert.KernelIdeal.Gen Cert.KernelIdeal.Value Idealize.ShloMosaic Idealize.ShloMosaic.TcCoe Idealize.SL.Sem
open Idealize.ShloMosaic.ValueIdx Cert.Mlp Cert.KernelIdeal.Blocks Cert.KernelIdeal.Payload Cert.KernelIdeal.Pieces
open scoped BigOperators

variable (m : (ℓ : Loc nD τ sig) → Buf (Elt Ideal) ℓ)

/-- One point's tile contribution over its blocks is the point's contribution over the whole arrays. -/
theorem tile_blocks (c : Dev nD) (t : Fin cfg0.N) (b : Fin 2) (k : Fin 512) (j : Fin 1024) :
    tile (xblk m c t) (w1blk m c t) (b1blk m c t) (w2blk m c t) b k j
      = tileAt (xarr m c) (w1arr m c) (b1arr m c) (w2arr m c) t.val b k j := by
  unfold tile tileAt hid
  refine Finset.sum_congr rfl fun r _ => ?_
  rw [b1blk_apply m c t, w2blk_apply m c t]
  congr 3
  refine Finset.sum_congr rfl fun q _ => ?_
  rw [xblk_apply m c t, w1blk_apply m c t]

/-- The point's contribution to the accumulator's entry `i`. -/
abbrev addend (c : Dev nD) (n : ℕ) (i : S2x512x1024.Idx) : EReal :=
  tileAt (xarr m c) (w1arr m c) (b1arr m c) (w2arr m c) n (i 0) (i 1) (i 2)

/-- At a run's first point the accumulator ends at zero plus the point's contribution. -/
theorem step_first (c : Dev nD) (n : ℕ) (h : n < cfg0.N) (h0 : n % 8 = 0) (junk : Vec Ideal S2x512x1024 .f32)
    (i : S2x512x1024.Idx) : scAt0_0 m c n h junk i = (0 : EReal) + addend m c n i := by
  obtain ⟨b, k, j, rfl⟩ : ∃ (b : Fin 2) (k : Fin 512) (j : Fin 1024), i = ix3 b k j := ⟨i 0, i 1, i 2, eq_ix3 i⟩
  have h1 : ¬n % 8 = 7 := by omega
  unfold scAt0_0
  rw [dif_pos h0, dif_neg h1]
  refine (congrFun (acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _)
    ((hcond0_0 (⟨n, h⟩ : Fin cfg0.N)).mpr h0) (fun hh => h1 ((hcond0_1 (⟨n, h⟩ : Fin cfg0.N)).mp hh)) (xblk m c (⟨n, h⟩ : Fin cfg0.N)) (w1blk m c (⟨n, h⟩ : Fin cfg0.N)) (b1blk m c (⟨n, h⟩ : Fin cfg0.N)) (w2blk m c (⟨n, h⟩ : Fin cfg0.N)) (b2blk m c (⟨n, h⟩ : Fin cfg0.N))) (ix3 b k j)).trans ?_
  rw [pay3_apply, pay2_apply, tile_blocks m c (⟨n, h⟩ : Fin cfg0.N) b k j]

/-- At every later point of the run it ends at what the point before left plus the point's contribution. -/
theorem step_next (c : Dev nD) (n : ℕ) (h : n < cfg0.N) (h0 : ¬n % 8 = 0) (acc : Vec Ideal S2x512x1024 .f32)
    (i : S2x512x1024.Idx) : scAt0_0 m c n h acc i = (acc i : EReal) + addend m c n i := by
  obtain ⟨b, k, j, rfl⟩ : ∃ (b : Fin 2) (k : Fin 512) (j : Fin 1024), i = ix3 b k j := ⟨i 0, i 1, i 2, eq_ix3 i⟩
  unfold scAt0_0
  rw [dif_neg h0]
  by_cases h1 : n % 8 = 7
  · rw [dif_pos h1]
    refine (congrFun (acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _)
      (fun hh => h0 ((hcond0_0 (⟨n, h⟩ : Fin cfg0.N)).mp hh)) ((hcond0_1 (⟨n, h⟩ : Fin cfg0.N)).mpr h1) (xblk m c (⟨n, h⟩ : Fin cfg0.N)) (w1blk m c (⟨n, h⟩ : Fin cfg0.N)) (b1blk m c (⟨n, h⟩ : Fin cfg0.N)) (w2blk m c (⟨n, h⟩ : Fin cfg0.N)) (b2blk m c (⟨n, h⟩ : Fin cfg0.N)) acc) (ix3 b k j)).trans ?_
    rw [pay3_apply, tile_blocks m c (⟨n, h⟩ : Fin cfg0.N) b k j]
  · rw [dif_neg h1]
    refine (congrFun (acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _)
      (fun hh => h0 ((hcond0_0 (⟨n, h⟩ : Fin cfg0.N)).mp hh)) (fun hh => h1 ((hcond0_1 (⟨n, h⟩ : Fin cfg0.N)).mp hh)) (xblk m c (⟨n, h⟩ : Fin cfg0.N)) (w1blk m c (⟨n, h⟩ : Fin cfg0.N)) (b1blk m c (⟨n, h⟩ : Fin cfg0.N)) (w2blk m c (⟨n, h⟩ : Fin cfg0.N)) (b2blk m c (⟨n, h⟩ : Fin cfg0.N)) acc) (ix3 b k j)).trans ?_
    rw [pay3_apply, tile_blocks m c (⟨n, h⟩ : Fin cfg0.N) b k j]

/-- After a run's last point the accumulator's entry is zero plus the sum of the run's eight contributions. -/
theorem acc_after_run (c : Dev nD) (t : Fin cfg0.N) (h7 : t.val % 8 = 7) (i : S2x512x1024.Idx) :
    (outsAt0 m c t.val t.isLt).2 i = (0 : EReal) + ∑ s ∈ Finset.range 8, addend m c (8 * (t.val / 8) + s) i := by
  rw [soutsAt0_0_eq m c t]
  have hN := lt_N t
  have key := Pipeline.accAt_add_apply (N := cfg0.N) (ι := S2x512x1024.Idx) (β := EReal)
    (fun n h => scAt0_0 m c n h (VS0_0.read (Elt Ideal) VS0_0.junk)) (scAt0_0 m c) (fun _ => (0 : EReal)) (addend m c)
    (8 * (t.val / 8)) 7
    (fun h i => step_first m c _ h (by omega) _ i)
    (fun n h acc i hlo hhi => step_next m c n h (by omega) acc i)
    (t.val % 8) (by omega) (by omega) i
  rw [key, h7]

end Cert.KernelIdeal.Acc

end
-- ==== Proof.Final.lean ====
/-
  The kernel's result array is the specification.

  The output block is written back at the last point of every tile run. There it holds the epilogue's value: the
  accumulator's entry — zero plus the run's eight tile contributions, which add up to the second layer's whole sum
  over the hidden axis — plus the expert's second bias: the specification's entry at the block's batch row and expert.
  The sixteen flushing points' blocks (eight experts × two pairs of batch rows) tile the output array, so after the
  run the whole array is the specification of the argument arrays.
-/
import proofs.«176429_j47107201303190_1_alg».proof.Proof.Acc

noncomputable section

namespace Cert.KernelIdeal.Final

open Cert.KernelIdeal Cert.KernelIdeal.Gen Cert.KernelIdeal.Value Idealize.ShloMosaic Idealize.ShloMosaic.TcCoe Idealize.SL.Sem
open Idealize.ShloMosaic.ValueIdx Cert.Mlp Cert.KernelIdeal.Blocks Cert.KernelIdeal.Payload Cert.KernelIdeal.Pieces
open Cert.KernelIdeal.Acc
open Idealize.ShloMosaic.Pipeline (Dat)
open scoped BigOperators

variable (m : (ℓ : Loc nD τ sig) → Buf (Elt Ideal) ℓ) (ρ : Dev nD → PrngReg)

/-- The specification of the argument arrays as launched. -/
abbrev result (c : Dev nD) : Vec Ideal S4x8x512x1024 .f32 :=
  mlp (xarr m c) (w1arr m c) (b1arr m c) (w2arr m c) (b2arr m c)

/-- At a run's last point the output block holds the epilogue's value of the accumulator as that point leaves it. -/
theorem out_block (c : Dev nD) (t : Fin cfg0.N) (h0 : ¬t.val % 8 = 0) (h7 : t.val % 8 = 7) :
    (outsAt0 m c t.val t.isLt).1 = k0_pay1 (F := Ideal) ((outsAt0 m c t.val t.isLt).2) (b2blk m c t) := by
  rw [outsAt0_C m c t h0 h7]
  dsimp only
  exact (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun hh => h0 ((hcond0_0 t).mp hh)) ((hcond0_1 t).mpr h7) (xblk m c t) (w1blk m c t) (b1blk m c t) (w2blk m c t) (b2blk m c t)
      (outsAt0 m c (t.val - 1) (Nat.lt_of_le_of_lt (Nat.sub_le _ _) t.isLt)).2).trans
    (congrArg (fun a => k0_pay1 (F := Ideal) a (b2blk m c t))
      (acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
        (fun hh => h0 ((hcond0_0 t).mp hh)) ((hcond0_1 t).mpr h7) (xblk m c t) (w1blk m c t) (b1blk m c t) (w2blk m c t) (b2blk m c t)
        (outsAt0 m c (t.val - 1) (Nat.lt_of_le_of_lt (Nat.sub_le _ _) t.isLt)).2).symm)

/-- Its entries are the specification's, at the point's batch rows and expert. -/
theorem out_apply (c : Dev nD) (t : Fin cfg0.N) (h0 : ¬t.val % 8 = 0) (h7 : t.val % 8 = 7)
    (b : Fin 2) (u : Fin 1) (k : Fin 512) (j : Fin 1024) :
    (outsAt0 m c t.val t.isLt).1 (ix4 b u k j)
      = mlpAt (xarr m c) (w1arr m c) (b1arr m c) (w2arr m c) (b2arr m c) (brow t.val b) (expert t.val) k j := by
  rw [out_block m c t h0 h7, pay1_apply, acc_after_run m c t h7, b2blk_apply m c t]
  show (0 : EReal) + ∑ s ∈ Finset.range 8, tileAt (xarr m c) (w1arr m c) (b1arr m c) (w2arr m c) (8 * (t.val / 8) + s) b k j
      + b2arr m c (ix3 (expert t.val) (0 : Fin 1) j) = _
  rw [sum_tileAt, zero_add]
  rfl

/-- What a flushing point writes back is its block of the specification. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  have h0 : ¬t.val % 8 = 0 := by omega
  have hN := lt_N t
  rw [flushed5 m c t]
  refine funext fun (y : S2x1x512x1024.Idx) => ?_
  have hy0 : (y 0).val < 2 := (y 0).isLt
  have hy1 : (y 1).val < 1 := (y 1).isLt
  have hy2 : (y 2).val < 512 := (y 2).isLt
  have hy3 : (y 3).val < 1024 := (y 3).isLt
  show (outsAt0 m c t.val t.isLt).1 (win0_5.xinj (grid0.coords t) y) = _
  have e1 : win0_5.xinj (grid0.coords t) y
      = ix4 (⟨(y 0).val, hy0⟩ : Fin 2) (⟨(y 1).val, hy1⟩ : Fin 1) (⟨(y 2).val, hy2⟩ : Fin 512) (⟨(y 3).val, hy3⟩ : Fin 1024) :=
    funext fun a => Fin.ext (by match a with | ⟨0, _⟩ => rfl | ⟨1, _⟩ => rfl | ⟨2, _⟩ => rfl | ⟨3, _⟩ => rfl)
  rw [e1, out_apply m c t h0 h7, View.read_apply]
  show _ = result m c (((cfg0.win 5).blk t).view.emb y)
  have e2 : ((cfg0.win 5).blk t).view.emb y
      = ix4 (brow t.val (⟨(y 0).val, hy0⟩ : Fin 2)) (expert t.val) (⟨(y 2).val, hy2⟩ : Fin 512) (⟨(y 3).val, hy3⟩ : Fin 1024) := by
    funext a
    apply Fin.ext
    match a with
    | ⟨0, _⟩ => show win0_5.index t 0 * 2 + 1 * (y 0).val = 2 * (t.val / 8 % 2) + (y 0).val; rw [(index_out t).1]; omega
    | ⟨1, _⟩ => show win0_5.index t 1 * 1 + 1 * (y 1).val = t.val / 16 % 8; rw [(index_out t).2.1]; omega
    | ⟨2, _⟩ => show win0_5.index t 2 * 512 + 1 * (y 2).val = (y 2).val; rw [(index_out t).2.2.1]; omega
    | ⟨3, _⟩ => show win0_5.index t 3 * 1024 + 1 * (y 3).val = (y 3).val; rw [(index_out t).2.2.2]; omega
  rw [e2]
  rfl

/-- An index of the output array is in point `t`'s block iff each coordinate is in the block's range on its axis. -/
theorem mem_blk (t : Fin cfg0.N) (i : S4x8x512x1024.Idx) :
    i ∈ ((cfg0.win 5).blk t).view.set ↔ ∀ a : Fin 4, win0_5.index t a * S2x1x512x1024.size a ≤ (i a).val
      ∧ (i a).val < win0_5.index t a * S2x1x512x1024.size a + S2x1x512x1024.size a := by
  show i ∈ ((View.whole main_v0).slice (win0_5.rect t)).set ↔ _
  rw [View.set_slice_whole, Rect.mem_set_unit]
  exact Iff.rfl

/-- Every index `(b, e, c, j)` of the output array is in the block written back at the last point of the run of expert
    `e` and batch-row pair `b / 2`. -/
theorem cover (i : S4x8x512x1024.Idx) :
    ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 512 := (i 2).isLt
  have hi3 : (i 3).val < 1024 := (i 3).isLt
  have hlt : 16 * (i 1).val + 8 * ((i 0).val / 2) + 7 < cfg0.N := by rw [show cfg0.N = 128 from N_0]; omega
  refine ⟨⟨16 * (i 1).val + 8 * ((i 0).val / 2) + 7, hlt⟩,
    (flush0_5 _).mpr (by show (16 * (i 1).val + 8 * ((i 0).val / 2) + 7) % 8 = 7; omega), ?_⟩
  rw [mem_blk]
  have e := index_out ⟨16 * (i 1).val + 8 * ((i 0).val / 2) + 7, hlt⟩
  have e0 : win0_5.index ⟨16 * (i 1).val + 8 * ((i 0).val / 2) + 7, hlt⟩ 0 = (16 * (i 1).val + 8 * ((i 0).val / 2) + 7) / 8 % 2 := e.1
  have e1 : win0_5.index ⟨16 * (i 1).val + 8 * ((i 0).val / 2) + 7, hlt⟩ 1 = (16 * (i 1).val + 8 * ((i 0).val / 2) + 7) / 16 := e.2.1
  have e2 : win0_5.index ⟨16 * (i 1).val + 8 * ((i 0).val / 2) + 7, hlt⟩ 2 = 0 := e.2.2.1
  have e3 : win0_5.index ⟨16 * (i 1).val + 8 * ((i 0).val / 2) + 7, hlt⟩ 3 = 0 := e.2.2.2
  intro a
  match a with
  | ⟨0, _⟩ =>
    show win0_5.index ⟨16 * (i 1).val + 8 * ((i 0).val / 2) + 7, hlt⟩ 0 * 2 ≤ (i 0).val
      ∧ (i 0).val < win0_5.index ⟨16 * (i 1).val + 8 * ((i 0).val / 2) + 7, hlt⟩ 0 * 2 + 2
    rw [e0]; omega
  | ⟨1, _⟩ =>
    show win0_5.index ⟨16 * (i 1).val + 8 * ((i 0).val / 2) + 7, hlt⟩ 1 * 1 ≤ (i 1).val
      ∧ (i 1).val < win0_5.index ⟨16 * (i 1).val + 8 * ((i 0).val / 2) + 7, hlt⟩ 1 * 1 + 1
    rw [e1]; omega
  | ⟨2, _⟩ =>
    show win0_5.index ⟨16 * (i 1).val + 8 * ((i 0).val / 2) + 7, hlt⟩ 2 * 512 ≤ (i 2).val
      ∧ (i 2).val < win0_5.index ⟨16 * (i 1).val + 8 * ((i 0).val / 2) + 7, hlt⟩ 2 * 512 + 512
    rw [e2]; omega
  | ⟨3, _⟩ =>
    show win0_5.index ⟨16 * (i 1).val + 8 * ((i 0).val / 2) + 7, hlt⟩ 3 * 1024 ≤ (i 3).val
      ∧ (i 3).val < win0_5.index ⟨16 * (i 1).val + 8 * ((i 0).val / 2) + 7, hlt⟩ 3 * 1024 + 1024
    rw [e3]; omega

/-- After the run the output array is the specification of the argument arrays. -/
theorem final (c : Dev nD) : (dats m 0 c).arrAt 5 cfg0.N = result m c :=
  (dats m 0 c).arrAt_eq_of_cover 5 (result m c) (flushed_eq m c) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Final

end
-- ==== Proof.lean ====
/-
  A two-layer perceptron per expert, with the hidden axis tiled: kernel against reference, over the extended reals.

  For batch row `b`, expert `e`, token `c` and output feature `j` both programs compute
      (∑ k < 4096, max (∑ q < 1024, x (b, e, c, q) · w1 (e, k, q) + b1 (e, 0, k)) 0 · w2 (e, k, j)) + b2 (e, 0, j).
  The reference does it with two batched matrix products over a flattened token axis. The kernel walks a grid of
  8 experts × 2 pairs of batch rows × 8 tiles of 512 hidden units; at each point it adds the tile's contribution to a
  scratch accumulator (zeroed at a run's first tile), and after the last tile writes accumulator plus second bias to
  the output block. Its changes of float format are the identity on extended reals and its matrix products into a zero
  accumulator are plain sums, so an output entry is zero plus the eight tiles' partial sums in order plus the bias;
  addition of extended reals being commutative and associative, that is the sum over all 4096 hidden units plus the
  bias. No entry needs to be finite: the precondition is not opened.

  The three frames are the generated ones (the reference's is its generated run with the result dropped); the
  idealization changed nothing, so `preserves` is trivial.
-/
import proofs.«176429_j47107201303190_1_alg».proof.Defs
import proofs.«176429_j47107201303190_1_alg».proof.Proof.Gen.Kernel
import proofs.«176429_j47107201303190_1_alg».proof.Proof.Gen.Kernel.Skeleton
import proofs.«176429_j47107201303190_1_alg».proof.Proof.Gen.Kernel.Launch
import proofs.«176429_j47107201303190_1_alg».proof.Proof.Gen.Kernel.Points
import proofs.«176429_j47107201303190_1_alg».proof.Proof.Gen.Kernel.Frame
import proofs.«176429_j47107201303190_1_alg».proof.Proof.Gen.KernelIdeal
import proofs.«176429_j47107201303190_1_alg».proof.Proof.Gen.KernelIdeal.Skeleton
import proofs.«176429_j47107201303190_1_alg».proof.Proof.Gen.KernelIdeal.Launch
import proofs.«176429_j47107201303190_1_alg».proof.Proof.Gen.KernelIdeal.Points
import proofs.«176429_j47107201303190_1_alg».proof.Proof.Gen.KernelIdeal.Frame
import proofs.«176429_j47107201303190_1_alg».proof.Proof.Gen.ReferenceIdeal
import proofs.«176429_j47107201303190_1_alg».proof.Proof.Gen.Pre_finite_inputs
import proofs.«176429_j47107201303190_1_alg».proof.Proof.Gen.KernelIdeal.Value
import proofs.«176429_j47107201303190_1_alg».proof.Proof.Gen.ReferenceIdeal.Run
import proofs.«176429_j47107201303190_1_alg».proof.Proof.Gen.ReferenceIdeal.Read
import proofs.«176429_j47107201303190_1_alg».proof.Proof.RefIsSpec
import proofs.«176429_j47107201303190_1_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at the specification of argument arrays that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2.1,
    (hagree c).2.2.2.2]
  exact Cert.RefIsMlp.ref_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
